-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256x128 .f32) (main_arg9 : FVec F S256 .f32) (main_arg10 : FVec F S256x128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S256x128 .f32) (main_arg9 : FVec F S256 .f32) (main_arg10 : FVec F S256x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S256x128 .f32) (main_arg9 : FVec F S256 .f32) (main_arg10 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S2000x128 : Shape := ⟨2, ![2000, 128]⟩
abbrev S1x128 : Shape := ⟨2, ![1, 128]⟩
abbrev S50000x256 : Shape := ⟨2, ![50000, 256]⟩
abbrev S2000x256 : Shape := ⟨2, ![2000, 256]⟩
abbrev S128x256 : Shape := ⟨2, ![128, 256]⟩
abbrev S1x256 : Shape := ⟨2, ![1, 256]⟩

abbrev nBuf : Space → Nat
  | .hbm => 78
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x128, .f32⟩
  | .hbm, ⟨9, _⟩ => ⟨S256, .f32⟩
  | .hbm, ⟨10, _⟩ => ⟨S256x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S256x128, .f32⟩
  | .local _ .vmem, ⟨23, _⟩ => ⟨S256x128, .f32⟩
  | .local _ .vmem, ⟨24, _⟩ => ⟨S256, .f32⟩
  | .local _ .vmem, ⟨25, _⟩ => ⟨S2000x256, .f32⟩
  | .local _ .vmem, ⟨26, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x256 : Shape := ⟨2, ![128, 256]⟩
abbrev S50000x256 : Shape := ⟨2, ![50000, 256]⟩
abbrev S1x256 : Shape := ⟨2, ![1, 256]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x128, .f32⟩
  | .hbm, ⟨9, _⟩ => ⟨S256, .f32⟩
  | .hbm, ⟨10, _⟩ => ⟨S256x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S128x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S128x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x128, .f32⟩
  | .hbm, ⟨96, _⟩ => ⟨S_, .f32⟩
  | .hbm, ⟨97, _⟩ => ⟨S50000x128, .f32⟩
  | .hbm, ⟨98, _⟩ => ⟨S800000x1, .i32⟩
  | .hbm, ⟨99, _⟩ => ⟨S50000x128, .f32⟩
  | .hbm, ⟨100, _⟩ => ⟨S_, .f32⟩
  | .hbm, ⟨101, _⟩ => ⟨S800000, .f32⟩
  | .hbm, ⟨102, _⟩ => ⟨S_, .f32⟩
  | .hbm, ⟨103, _⟩ => ⟨S50000, .f32⟩
  | .hbm, ⟨104, _⟩ => ⟨S800000x1, .i32⟩
  | .hbm, ⟨105, _⟩ => ⟨S50000, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x128, .f32⟩
  | .hbm, ⟨111, _⟩ => ⟨S50000x128, .f32⟩
  | .hbm, ⟨112, _⟩ => ⟨S128x256, .f32⟩
  | .hbm, ⟨113, _⟩ => ⟨S50000x256, .f32⟩
  | .hbm, ⟨114, _⟩ => ⟨S1x256, .f32⟩
  | .hbm, ⟨115, _⟩ => ⟨S50000x256, .f32⟩
  | .hbm, ⟨116, _⟩ => ⟨S50000x256, .f32⟩
  | .hbm, ⟨117, _⟩ => ⟨S128x256, .f32⟩
  | .hbm, ⟨118, _⟩ => ⟨S50000x256, .f32⟩
  | .hbm, ⟨119, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.Stretch.lean ====
/-
  The host operations between the dense regions, read as functions of the buffers each stretch starts from.

  Before every region the program gathers the rows of the current features named by the edges' sources (a negative
  source index wraps once by the row count), sums them into the edges' destination rows, and scales row `p` by the
  reciprocal of `max(degree p, 1)`, the degree being the number of edges that end at `p` (a sum of ones). The first
  stretch also splits the edge list into sources and destinations and computes that reciprocal; the later two reuse
  them. No stretch writes an argument array or a buffer a later stretch reads, other than its own results.
-/
import proofs.«168733_j53163105190283_1_alg».proof.Proof.KernelIdealLaunchP
import Idealize.ShloMosaic.Lib.StableHlo.Run
import Idealize.ShloMosaic.PureOps.Ideal

set_option maxRecDepth 16384

noncomputable section

namespace Cert.KernelIdeal.Dense

open Cert.KernelIdeal Cert.KernelIdeal.Gen Cert.KernelIdeal.GenP
open Idealize.ShloMosaic Idealize.ShloMosaic.TcCoe Idealize.ShloMosaic.StableHlo
open Idealize.SL.Sem

/-- The edges' sources: row 0 of the edge list. -/
def srcOf (e : IVec S2x800000 32) : IVec S800000 32 :=
  shapeCast S800000 (extractStridedSlice S1x800000 ![0, 0] e slices_S2x800000_S1x800000_0_0) shapeCasts_S1x800000_S800000

/-- The edges' destinations: row 1 of the edge list. -/
def dstOf (e : IVec S2x800000 32) : IVec S800000 32 :=
  shapeCast S800000 (extractStridedSlice S1x800000 ![1, 0] e slices_S2x800000_S1x800000_1_0) shapeCasts_S1x800000_S800000

/-- The gather's start indices: a negative source wraps once by the row count. -/
def srcIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The scatter's indices: the destinations as a column. -/
def dstIdx (d : IVec S800000 32) : IVec S800000x1 32 := broadcastInDim S800000x1 ![0] bcast_S800000_S800000x1_0 d

/-- The sum over incoming edges of the source rows. -/
def aggregate (h : FVec Ideal S50000x128 .f32) (s d : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32)) (dstIdx d)
    (Host.gather gather_S50000x128_S800000x1_S800000x128_1_0_n_n_0_1_1128 h (srcIdx s))

/-- A per-row value spread along the 128 features. -/
def alongRows (v : FVec Ideal S50000 .f32) : FVec Ideal S50000x128 .f32 :=
  broadcastInDim S50000x128 ![0, 1] bcast_S50000x1_S50000x128_0_1 (broadcastInDim S50000x1 ![0] bcast_S50000_S50000x1_0 v)

/-- `max(degree, 1)` per row: the number of incoming edges, at least one. -/
def degree (d : IVec S800000 32) : FVec Ideal S50000 .f32 :=
  maximumf
    (Host.scatterAdd scatter_S50000_S800000x1_S800000_n_0_0_1
      (broadcastInDim S50000 ![] bcast_S_S50000 (constant (F := Ideal) S_ .f32 0x00000000#32)) (dstIdx d)
      (broadcastInDim S800000 ![] bcast_S_S800000 (constant (F := Ideal) S_ .f32 0x3F800000#32)))
    (broadcastInDim S50000 ![] bcast_S_S50000 (constant (F := Ideal) S_ .f32 0x3F800000#32))

/-- Its reciprocal, as the kernel's program computes it once: `1 / max(degree, 1)`. -/
def invDegree (d : IVec S800000 32) : FVec Ideal S50000 .f32 :=
  Host.divf (broadcastInDim S50000 ![] bcast_S_S50000 (constant (F := Ideal) S_ .f32 0x3F800000#32)) (degree d)

/-- The neighbour mean the kernel's program feeds a dense region: the aggregate times the spread reciprocal. -/
def meanTimes (h : FVec Ideal S50000x128 .f32) (s d : IVec S800000 32) (iv : FVec Ideal S50000 .f32) :
    FVec Ideal S50000x128 .f32 :=
  mulf (aggregate h s d) (alongRows iv)

/-! ## The first stretch -/

set_option maxHeartbeats 4000000 in
theorem stretch0_v1 (W : Valuation τ sig (Elt Ideal)) :
    StableHlo.after hostOps0 W (Proc.devRef .tc main_v1) = srcOf (W (Proc.devRef .tc main_arg1)) := by
  after_results_simp; rfl

set_option maxHeartbeats 4000000 in
theorem stretch0_v3 (W : Valuation τ sig (Elt Ideal)) :
    StableHlo.after hostOps0 W (Proc.devRef .tc main_v3) = dstOf (W (Proc.devRef .tc main_arg1)) := by
  after_results_simp; rfl

set_option maxHeartbeats 4000000 in
theorem stretch0_v11 (W : Valuation τ sig (Elt Ideal)) :
    StableHlo.after hostOps0 W (Proc.devRef .tc main_v11) = invDegree (dstOf (W (Proc.devRef .tc main_arg1))) := by
  after_results_simp; rfl

set_option maxHeartbeats 4000000 in
theorem stretch0_v24 (W : Valuation τ sig (Elt Ideal)) :
    StableHlo.after hostOps0 W (Proc.devRef .tc main_v24)
      = meanTimes (W (Proc.devRef .tc main_arg0)) (srcOf (W (Proc.devRef .tc main_arg1)))
          (dstOf (W (Proc.devRef .tc main_arg1))) (invDegree (dstOf (W (Proc.devRef .tc main_arg1)))) := by
  after_results_simp; rfl

theorem keep0_arg0 (W : Valuation τ sig (Elt Ideal)) :
    StableHlo.after hostOps0 W (Proc.devRef .tc main_arg0) = W (Proc.devRef .tc main_arg0) := by
  after_results_simp

theorem keep0_arg2 (W : Valuation τ sig (Elt Ideal)) :
    StableHlo.after hostOps0 W (Proc.devRef .tc main_arg2) = W (Proc.devRef .tc main_arg2) := by
  after_results_simp

theorem keep0_arg3 (W : Valuation τ sig (Elt Ideal)) :
    StableHlo.after hostOps0 W (Proc.devRef .tc main_arg3) = W (Proc.devRef .tc main_arg3) := by
  after_results_simp

theorem keep0_arg4 (W : Valuation τ sig (Elt Ideal)) :
    StableHlo.after hostOps0 W (Proc.devRef .tc main_arg4) = W (Proc.devRef .tc main_arg4) := by
  after_results_simp

theorem keep0_arg5 (W : Valuation τ sig (Elt Ideal)) :
    StableHlo.after hostOps0 W (Proc.devRef .tc main_arg5) = W (Proc.devRef .tc main_arg5) := by
  after_results_simp

theorem keep0_arg6 (W : Valuation τ sig (Elt Ideal)) :
    StableHlo.after hostOps0 W (Proc.devRef .tc main_arg6) = W (Proc.devRef .tc main_arg6) := by
  after_results_simp

theorem keep0_arg7 (W : Valuation τ sig (Elt Ideal)) :
    StableHlo.after hostOps0 W (Proc.devRef .tc main_arg7) = W (Proc.devRef .tc main_arg7) := by
  after_results_simp

theorem keep0_arg8 (W : Valuation τ sig (Elt Ideal)) :
    StableHlo.after hostOps0 W (Proc.devRef .tc main_arg8) = W (Proc.devRef .tc main_arg8) := by
  after_results_simp

theorem keep0_arg9 (W : Valuation τ sig (Elt Ideal)) :
    StableHlo.after hostOps0 W (Proc.devRef .tc main_arg9) = W (Proc.devRef .tc main_arg9) := by
  after_results_simp

theorem keep0_arg10 (W : Valuation τ sig (Elt Ideal)) :
    StableHlo.after hostOps0 W (Proc.devRef .tc main_arg10) = W (Proc.devRef .tc main_arg10) := by
  after_results_simp

/-! ## The second stretch -/

set_option maxHeartbeats 4000000 in
theorem stretch1_v38 (W : Valuation τ sig (Elt Ideal)) :
    StableHlo.after hostOps1 W (Proc.devRef .tc main_v38)
      = meanTimes (W (Proc.devRef .tc main_v25)) (W (Proc.devRef .tc main_v1)) (W (Proc.devRef .tc main_v3))
          (W (Proc.devRef .tc main_v11)) := by
  after_results_simp; rfl

theorem keep1_v25 (W : Valuation τ sig (Elt Ideal)) :
    StableHlo.after hostOps1 W (Proc.devRef .tc main_v25) = W (Proc.devRef .tc main_v25) := by
  after_results_simp

theorem keep1_v1 (W : Valuation τ sig (Elt Ideal)) :
    StableHlo.after hostOps1 W (Proc.devRef .tc main_v1) = W (Proc.devRef .tc main_v1) := by
  after_results_simp

theorem keep1_v3 (W : Valuation τ sig (Elt Ideal)) :
    StableHlo.after hostOps1 W (Proc.devRef .tc main_v3) = W (Proc.devRef .tc main_v3) := by
  after_results_simp

theorem keep1_v11 (W : Valuation τ sig (Elt Ideal)) :
    StableHlo.after hostOps1 W (Proc.devRef .tc main_v11) = W (Proc.devRef .tc main_v11) := by
  after_results_simp

theorem keep1_arg5 (W : Valuation τ sig (Elt Ideal)) :
    StableHlo.after hostOps1 W (Proc.devRef .tc main_arg5) = W (Proc.devRef .tc main_arg5) := by
  after_results_simp

theorem keep1_arg6 (W : Valuation τ sig (Elt Ideal)) :
    StableHlo.after hostOps1 W (Proc.devRef .tc main_arg6) = W (Proc.devRef .tc main_arg6) := by
  after_results_simp

theorem keep1_arg7 (W : Valuation τ sig (Elt Ideal)) :
    StableHlo.after hostOps1 W (Proc.devRef .tc main_arg7) = W (Proc.devRef .tc main_arg7) := by
  after_results_simp

theorem keep1_arg8 (W : Valuation τ sig (Elt Ideal)) :
    StableHlo.after hostOps1 W (Proc.devRef .tc main_arg8) = W (Proc.devRef .tc main_arg8) := by
  after_results_simp

theorem keep1_arg9 (W : Valuation τ sig (Elt Ideal)) :
    StableHlo.after hostOps1 W (Proc.devRef .tc main_arg9) = W (Proc.devRef .tc main_arg9) := by
  after_results_simp

theorem keep1_arg10 (W : Valuation τ sig (Elt Ideal)) :
    StableHlo.after hostOps1 W (Proc.devRef .tc main_arg10) = W (Proc.devRef .tc main_arg10) := by
  after_results_simp

/-! ## The third stretch -/

set_option maxHeartbeats 4000000 in
theorem stretch2_v52 (W : Valuation τ sig (Elt Ideal)) :
    StableHlo.after hostOps2 W (Proc.devRef .tc main_v52)
      = meanTimes (W (Proc.devRef .tc main_v39)) (W (Proc.devRef .tc main_v1)) (W (Proc.devRef .tc main_v3))
          (W (Proc.devRef .tc main_v11)) := by
  after_results_simp; rfl

theorem keep2_v39 (W : Valuation τ sig (Elt Ideal)) :
    StableHlo.after hostOps2 W (Proc.devRef .tc main_v39) = W (Proc.devRef .tc main_v39) := by
  after_results_simp

theorem keep2_arg8 (W : Valuation τ sig (Elt Ideal)) :
    StableHlo.after hostOps2 W (Proc.devRef .tc main_arg8) = W (Proc.devRef .tc main_arg8) := by
  after_results_simp

theorem keep2_arg9 (W : Valuation τ sig (Elt Ideal)) :
    StableHlo.after hostOps2 W (Proc.devRef .tc main_arg9) = W (Proc.devRef .tc main_arg9) := by
  after_results_simp

theorem keep2_arg10 (W : Valuation τ sig (Elt Ideal)) :
    StableHlo.after hostOps2 W (Proc.devRef .tc main_arg10) = W (Proc.devRef .tc main_arg10) := by
  after_results_simp

end Cert.KernelIdeal.Dense

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.PayAt.lean ====
/-
  The three dense bodies read at one element, at the ideal values.

  Each grid point's body takes a block of 2000 rows of the neighbour mean and of the node features and the whole of
  the two weight matrices and the bias, and stores, at row `i` and output feature `q`,
  `(∑ₖ mean(i,k)·Wl(q,k) + ∑ₖ x(i,k)·Wr(q,k)) + b(q)` — clamped below at zero in the first two layers. The casts to
  bf16 are the identity on the extended reals; a product against a transposed weight matrix reads the weight at
  `(q, k)`; the bias is a row vector broadcast down the rows.
-/
import proofs.«168733_j53163105190283_1_alg».proof.Proof.Gen.KernelIdeal.Skeleton
import proofs.«168733_j53163105190283_1_alg».proof.Proof.LibPlainDot
import Idealize.ShloMosaic.Lib.ValueIdx
import Idealize.ShloMosaic.Lib.ValueLayout
import Idealize.ShloMosaic.Lib.Pipeline.Value
import Idealize.ShloMosaic.PureOps.Ideal

open scoped BigOperators

noncomputable section

namespace Cert.KernelIdeal.Dense

open Cert.KernelIdeal Cert.KernelIdeal.Gen
open Idealize.ShloMosaic Idealize.ShloMosaic.ValueIdx Idealize.ShloMosaic.Pipeline

/-- One element of a dense layer before the clamp: the two contractions over the 128 input features and the bias. -/
def affineAt {R N : Nat} (mean x : (⟨2, ![R, 128]⟩ : Shape).Idx → EReal) (wl wr : (⟨2, ![N, 128]⟩ : Shape).Idx → EReal)
    (b : (⟨1, ![N]⟩ : Shape).Idx → EReal) (i : Fin R) (q : Fin N) : EReal :=
  (∑ k : Fin 128, mean (ix2 i k) * wl (ix2 q k) + ∑ k : Fin 128, x (ix2 i k) * wr (ix2 q k)) + b (ix1 q)

/-- A bf16 cast of a transposed 128 × 128 weight matrix, read at `(k, q)`: the weight at `(q, k)`. -/
theorem weightT128 (w : Vec Ideal S128x128 .f32) (k q : Fin 128) :
    transpose S128x128 [1, 0] (truncf (F := Ideal) .bf16 w bitsLt_bf16_f32) transposes_S128x128_p1_0_S128x128 (ix2 k q)
      = w (ix2 q k) :=
  transpose_ix2_apply (truncf (F := Ideal) .bf16 w bitsLt_bf16_f32) transposes_S128x128_p1_0_S128x128 k q

/-- The same for the last layer's 256 × 128 weights. -/
theorem weightT256 (w : Vec Ideal S256x128 .f32) (k : Fin 128) (q : Fin 256) :
    transpose S128x256 [1, 0] (truncf (F := Ideal) .bf16 w bitsLt_bf16_f32) transposes_S256x128_p1_0_S128x256 (ix2 k q)
      = w (ix2 q k) :=
  transpose_ix2_apply (truncf (F := Ideal) .bf16 w bitsLt_bf16_f32) transposes_S256x128_p1_0_S128x256 k q

/-- The bias as a row vector broadcast down `R` rows, read at `(i, q)`: the bias at `q`. -/
theorem biasRows_apply {R N : Nat} (b : FVec Ideal ⟨1, ![N]⟩ .f32) (hc : (⟨1, ![N]⟩ : Shape).ShapeCasts ⟨2, ![1, N]⟩)
    (hb : (⟨2, ![1, N]⟩ : Shape).Broadcasts ⟨2, ![R, N]⟩) (i : Fin R) (q : Fin N) :
    broadcastTo ⟨2, ![R, N]⟩ (shapeCast ⟨2, ![1, N]⟩ b hc) hb (ix2 i q) = b (ix1 q) := by
  rw [broadcastTo_apply _ hb (ix2 i q) (ix2 (0 : Fin 1) q) (fun a => by
    match a with
    | ⟨0, _⟩ => rfl
    | ⟨1, _⟩ =>
      show q.val = if N = 1 then 0 else q.val
      split
      · have := q.isLt; omega
      · rfl)]
  exact shapeCast_a_1a_apply b hc 0 q

/-- A hidden layer as a whole-array function: element `(p, q)` from row `p` of the mean and of the features,
    clamped below at zero. -/
def layerRelu (mean x : FVec Ideal S50000x128 .f32) (wl wr : FVec Ideal S128x128 .f32) (b : FVec Ideal S128 .f32) :
    FVec Ideal S50000x128 .f32 :=
  fun j => max (affineAt mean x wl wr b (j 0) (j 1)) 0

/-- The last layer as a whole-array function: 256 output features, no clamp. -/
def layerLast (mean x : FVec Ideal S50000x128 .f32) (wl wr : FVec Ideal S256x128 .f32) (b : FVec Ideal S256 .f32) :
    FVec Ideal S50000x256 .f32 :=
  fun j => affineAt mean x wl wr b (j 0) (j 1)

theorem zero2 : (![0, 0] : Fin 2 → Nat) = fun _ => 0 := funext fun a => by fin_cases a <;> rfl
theorem zero1 : (![0] : Fin 1 → Nat) = fun _ => 0 := funext fun a => by fin_cases a; rfl

/-- The first layer's body at row `i`, output feature `q` of its block. -/
theorem pay0_apply (x0 x1 : Vec Ideal S2000x128 .f32) (x2 x3 : Vec Ideal S128x128 .f32) (x4 : Vec Ideal S128 .f32)
    (i : Fin 2000) (q : Fin 128) :
    k0_pay1 x0 x1 x2 x3 x4 (ix2 i q) = max (affineAt x0 x1 x2 x3 x4 i q) 0 := by
  unfold affineAt
  simp only [k0_pay1, maximumf_apply, addf_apply, broadcast_apply]
  rw [PlainDot.matmul_zero_apply dot_S2000x128_S128x128_S2000x128_1_0_0_1_n_n rfl rfl rfl rfl rfl rfl rfl rfl,
    PlainDot.matmul_zero_apply dot_S2000x128_S128x128_S2000x128_1_0_0_1_n_n rfl rfl rfl rfl rfl rfl rfl rfl]
  simp only [truncf_apply, shapeCast_self, biasRows_apply, Ideal.ofBits_def, Ideal.ofBits_zero_f32]
  refine congrArg₂ max (congrArg₂ HAdd.hAdd (congrArg₂ HAdd.hAdd ?_ ?_) rfl) rfl
  · exact Finset.sum_congr rfl fun k _ => congrArg (x0 (ix2 i k) * ·) (weightT128 x2 k q)
  · exact Finset.sum_congr rfl fun k _ => congrArg (x1 (ix2 i k) * ·) (weightT128 x3 k q)

/-- The second layer's body: the same function of its blocks (the features pass through one more identity cast). -/
theorem pay1_apply (x0 x1 : Vec Ideal S2000x128 .f32) (x2 x3 : Vec Ideal S128x128 .f32) (x4 : Vec Ideal S128 .f32)
    (i : Fin 2000) (q : Fin 128) :
    k1_pay1 x0 x1 x2 x3 x4 (ix2 i q) = max (affineAt x0 x1 x2 x3 x4 i q) 0 := by
  unfold affineAt
  simp only [k1_pay1, maximumf_apply, addf_apply, broadcast_apply]
  rw [PlainDot.matmul_zero_apply dot_S2000x128_S128x128_S2000x128_1_0_0_1_n_n rfl rfl rfl rfl rfl rfl rfl rfl,
    PlainDot.matmul_zero_apply dot_S2000x128_S128x128_S2000x128_1_0_0_1_n_n rfl rfl rfl rfl rfl rfl rfl rfl]
  simp only [truncf_apply, shapeCast_self, biasRows_apply, Ideal.ofBits_def, Ideal.ofBits_zero_f32]
  refine congrArg₂ max (congrArg₂ HAdd.hAdd (congrArg₂ HAdd.hAdd ?_ ?_) rfl) rfl
  · exact Finset.sum_congr rfl fun k _ => congrArg (x0 (ix2 i k) * ·) (weightT128 x2 k q)
  · exact Finset.sum_congr rfl fun k _ => congrArg (x1 (ix2 i k) * ·) (weightT128 x3 k q)

/-- The last layer's body: 256 output features, no clamp. -/
theorem pay2_apply (x0 x1 : Vec Ideal S2000x128 .f32) (x2 x3 : Vec Ideal S256x128 .f32) (x4 : Vec Ideal S256 .f32)
    (i : Fin 2000) (q : Fin 256) :
    k2_pay1 x0 x1 x2 x3 x4 (ix2 i q) = affineAt x0 x1 x2 x3 x4 i q := by
  unfold affineAt
  simp only [k2_pay1, addf_apply]
  rw [PlainDot.matmul_zero_apply dot_S2000x128_S128x256_S2000x256_1_0_0_1_n_n rfl rfl rfl rfl rfl rfl rfl rfl,
    PlainDot.matmul_zero_apply dot_S2000x128_S128x256_S2000x256_1_0_0_1_n_n rfl rfl rfl rfl rfl rfl rfl rfl]
  simp only [truncf_apply, shapeCast_self, biasRows_apply]
  refine congrArg₂ HAdd.hAdd (congrArg₂ HAdd.hAdd ?_ ?_) rfl
  · exact Finset.sum_congr rfl fun k _ => congrArg (x0 (ix2 i k) * ·) (weightT256 x2 k q)
  · exact Finset.sum_congr rfl fun k _ => congrArg (x1 (ix2 i k) * ·) (weightT256 x3 k q)

end Cert.KernelIdeal.Dense

end
-- ==== Proof.KernelOut.lean ====
/-
  The kernel's program as a function of its arguments: three layers, each the dense layer of the neighbour mean
  (aggregate times the reciprocal of `max(degree, 1)`) and the current features, the last one with 256 output
  features and no clamp.
-/
import proofs.«168733_j53163105190283_1_alg».proof.Proof.Stretch
import proofs.«168733_j53163105190283_1_alg».proof.Proof.PayAt

noncomputable section

namespace Cert.KernelIdeal.Dense

open Cert.KernelIdeal Cert.KernelIdeal.Gen
open Idealize.ShloMosaic

/-- One hidden layer of the kernel's program: the dense layer of the mean-times-reciprocal and the features. -/
def step (h : FVec Ideal S50000x128 .f32) (e : IVec S2x800000 32) (wl : FVec Ideal S128x128 .f32) (b : FVec Ideal S128 .f32)
    (wr : FVec Ideal S128x128 .f32) : FVec Ideal S50000x128 .f32 :=
  layerRelu (meanTimes h (srcOf e) (dstOf e) (invDegree (dstOf e))) h wl wr b

/-- The last layer of the kernel's program. -/
def stepLast (h : FVec Ideal S50000x128 .f32) (e : IVec S2x800000 32) (wl : FVec Ideal S256x128 .f32) (b : FVec Ideal S256 .f32)
    (wr : FVec Ideal S256x128 .f32) : FVec Ideal S50000x256 .f32 :=
  layerLast (meanTimes h (srcOf e) (dstOf e) (invDegree (dstOf e))) h wl wr b

/-- The kernel's result as a function of its eleven arguments. -/
def out (x : FVec Ideal S50000x128 .f32) (e : IVec S2x800000 32) (wl0 : FVec Ideal S128x128 .f32) (b0 : FVec Ideal S128 .f32)
    (wr0 wl1 : FVec Ideal S128x128 .f32) (b1 : FVec Ideal S128 .f32) (wr1 : FVec Ideal S128x128 .f32)
    (wl2 : FVec Ideal S256x128 .f32) (b2 : FVec Ideal S256 .f32) (wr2 : FVec Ideal S256x128 .f32) : FVec Ideal S50000x256 .f32 :=
  stepLast (step (step x e wl0 b0 wr0) e wl1 b1 wr1) e wl2 b2 wr2

theorem layerRelu_congr {a a' x x' : FVec Ideal S50000x128 .f32} {wl wl' wr wr' : FVec Ideal S128x128 .f32}
    {b b' : FVec Ideal S128 .f32} (h0 : a = a') (h1 : x = x') (h2 : wl = wl') (h3 : wr = wr') (h4 : b = b') :
    layerRelu a x wl wr b = layerRelu a' x' wl' wr' b' := by rw [h0, h1, h2, h3, h4]

theorem layerLast_congr {a a' x x' : FVec Ideal S50000x128 .f32} {wl wl' wr wr' : FVec Ideal S256x128 .f32}
    {b b' : FVec Ideal S256 .f32} (h0 : a = a') (h1 : x = x') (h2 : wl = wl') (h3 : wr = wr') (h4 : b = b') :
    layerLast a x wl wr b = layerLast a' x' wl' wr' b' := by rw [h0, h1, h2, h3, h4]

theorem meanTimes_congr {h h' : FVec Ideal S50000x128 .f32} {s s' d d' : IVec S800000 32} {iv iv' : FVec Ideal S50000 .f32}
    (h0 : h = h') (h1 : s = s') (h2 : d = d') (h3 : iv = iv') : meanTimes h s d iv = meanTimes h' s' d' iv' := by
  rw [h0, h1, h2, h3]

end Cert.KernelIdeal.Dense

end
-- ==== Proof.Region0.lean ====
/-
  What the first dense region leaves in its output array, as one function of the arrays the region finds at entry.

  The grid has 25 points; point `t` takes rows `2000·t … 2000·t + 1999` of the neighbour mean and of the node
  features, the whole of both weight matrices and of the bias, and writes back rows `2000·t …` of the output. So the
  output array's element `(p, q)` is the layer's value at `(p, q)` computed from row `p` of the two inputs: every
  block is a restriction of one whole-array function, and the 25 blocks tile the 50000 rows.
-/
import proofs.«168733_j53163105190283_1_alg».proof.Proof.KernelIdealFrameP
import proofs.«168733_j53163105190283_1_alg».proof.Proof.PayAt
import Idealize.ShloMosaic.Lib.Pipeline.Value

set_option maxRecDepth 16384

open scoped BigOperators

noncomputable section

namespace Cert.KernelIdeal.Dense

open Cert.KernelIdeal Cert.KernelIdeal.Gen Cert.KernelIdeal.GenP
open Idealize.ShloMosaic Idealize.ShloMosaic.TcCoe Idealize.ShloMosaic.ValueIdx Idealize.ShloMosaic.Pipeline
open Idealize.SL.Sem

variable (V : (c : Dev nD) → (b : Ref sig .tc) → Buf (Elt Ideal) ((c : Thread nD τ).loc b))

/-- The printed index maps over the grid: the row-blocked windows sit at block row `t`, column block 0; the
    weights and the bias at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The row of the array that row `i` of point `t`'s block is. -/
def row0 (t : Fin cfg0.N) (i : Fin 2000) : Fin 50000 :=
  ⟨t.val * 2000 + i.val, by have := t.isLt; have h : cfg0.N = 25 := N_0; have := i.isLt; omega⟩

theorem emb0_0 (t : Fin cfg0.N) (i : Fin 2000) (k : Fin 128) :
    ((cfg0.win 0).blk t).view.emb (ix2 i k) = ix2 (row0 t i) k := by
  obtain ⟨e0, e1, -⟩ := idx0 t
  funext a; apply Fin.ext
  match a with
  | ⟨0, _⟩ => show win0_0.index t (0 : Fin 2) * 2000 + 1 * i.val = t.val * 2000 + i.val; omega
  | ⟨1, _⟩ => show win0_0.index t (1 : Fin 2) * 128 + 1 * k.val = k.val; omega

theorem emb0_1 (t : Fin cfg0.N) (i : Fin 2000) (k : Fin 128) :
    ((cfg0.win 1).blk t).view.emb (ix2 i k) = ix2 (row0 t i) k := by
  obtain ⟨-, -, e0, e1, -⟩ := idx0 t
  funext a; apply Fin.ext
  match a with
  | ⟨0, _⟩ => show win0_1.index t (0 : Fin 2) * 2000 + 1 * i.val = t.val * 2000 + i.val; omega
  | ⟨1, _⟩ => show win0_1.index t (1 : Fin 2) * 128 + 1 * k.val = k.val; omega

theorem emb0_2 (t : Fin cfg0.N) (q : Fin 128) (k : Fin 128) :
    ((cfg0.win 2).blk t).view.emb (ix2 q k) = ix2 q k := by
  obtain ⟨-, -, -, -, e0, e1, -⟩ := idx0 t
  funext a; apply Fin.ext
  match a with
  | ⟨0, _⟩ => show win0_2.index t (0 : Fin 2) * 128 + 1 * q.val = q.val; omega
  | ⟨1, _⟩ => show win0_2.index t (1 : Fin 2) * 128 + 1 * k.val = k.val; omega

theorem emb0_3 (t : Fin cfg0.N) (q : Fin 128) (k : Fin 128) :
    ((cfg0.win 3).blk t).view.emb (ix2 q k) = ix2 q k := by
  obtain ⟨-, -, -, -, -, -, e0, e1, -⟩ := idx0 t
  funext a; apply Fin.ext
  match a with
  | ⟨0, _⟩ => show win0_3.index t (0 : Fin 2) * 128 + 1 * q.val = q.val; omega
  | ⟨1, _⟩ => show win0_3.index t (1 : Fin 2) * 128 + 1 * k.val = k.val; omega

theorem emb0_4 (t : Fin cfg0.N) (q : Fin 128) :
    ((cfg0.win 4).blk t).view.emb (ix1 q) = ix1 q := by
  obtain ⟨-, -, -, -, -, -, -, -, e0, -⟩ := idx0 t
  funext a; apply Fin.ext
  match a with
  | ⟨0, _⟩ => show win0_4.index t (0 : Fin 1) * 128 + 1 * q.val = q.val; omega

theorem emb0_5 (t : Fin cfg0.N) (i : Fin 2000) (q : Fin 128) :
    ((cfg0.win 5).blk t).view.emb (ix2 i q) = ix2 (row0 t i) q := by
  obtain ⟨-, -, -, -, -, -, -, -, -, e0, e1⟩ := idx0 t
  funext a; apply Fin.ext
  match a with
  | ⟨0, _⟩ => show win0_5.index t (0 : Fin 2) * 2000 + 1 * i.val = t.val * 2000 + i.val; omega
  | ⟨1, _⟩ => show win0_5.index t (1 : Fin 2) * 128 + 1 * q.val = q.val; omega

/-- What point `t` writes back is block `t` of the layer of the arrays the region finds. -/
theorem flushed0 (c : Dev nD) (t : Fin cfg0.N) :
    (dat0 V c).flushed 5 t = ((cfg0.win 5).blk t).view.read (Elt Ideal)
      (layerRelu (V c main_v24) (V c main_arg0) (V c main_arg2) (V c main_arg4) (V c main_arg3)) := by
  show (cfg0.win 5).cut (grid0.coords t) ((dat0 V c).after 5 t) = _
  rw [after0_5]
  unfold out0_5
  rw [View.canon_unit_zero zero2]
  simp only [View.ld_unit_zero (S := S2000x128) zero2, View.ld_unit_zero (S := S128x128) zero2, View.ld_unit_zero (S := S128) zero1]
  funext y
  obtain ⟨i, q, rfl⟩ : ∃ (i : Fin 2000) (q : Fin 128), y = ix2 i q := ⟨y 0, y 1, eq_ix2 y⟩
  show k0_pay1 (iblk0 V c 0 t) (iblk0 V c 1 t) (iblk0 V c 2 t) (iblk0 V c 3 t) (iblk0 V c 4 t) (ix2 i q)
    = layerRelu (V c main_v24) (V c main_arg0) (V c main_arg2) (V c main_arg4) (V c main_arg3) (((cfg0.win 5).blk t).view.emb (ix2 i q))
  refine (pay0_apply _ _ _ _ _ i q).trans ?_
  rw [emb0_5]
  show max (affineAt (iblk0 V c 0 t) (iblk0 V c 1 t) (iblk0 V c 2 t) (iblk0 V c 3 t) (iblk0 V c 4 t) i q) 0
    = max (affineAt (V c main_v24) (V c main_arg0) (V c main_arg2) (V c main_arg4) (V c main_arg3) (row0 t i) q) 0
  unfold affineAt
  refine congrArg (max · 0) (congrArg₂ HAdd.hAdd (congrArg₂ HAdd.hAdd
    (Finset.sum_congr rfl fun k _ => ?_) (Finset.sum_congr rfl fun k _ => ?_)) ?_)
  · exact congrArg₂ HMul.hMul (congrArg (V c main_v24) (emb0_0 t i k)) (congrArg (V c main_arg2) (emb0_2 t q k))
  · exact congrArg₂ HMul.hMul (congrArg (V c main_arg0) (emb0_1 t i k)) (congrArg (V c main_arg4) (emb0_3 t q k))
  · exact congrArg (V c main_arg3) (emb0_4 t q)

/-- Every index of the output array is in the block of the point its row falls in. -/
theorem cover0 (j : S50000x128.Idx) :
    ∃ t : Fin cfg0.N, (cfg0.win 5).flush t = true ∧ j ∈ ((cfg0.win 5).blk t).view.set := by
  have hp : (j 0).val < 50000 := (j 0).isLt
  have hq : (j 1).val < 128 := (j 1).isLt
  have hN : cfg0.N = 25 := N_0
  let t : Fin cfg0.N := ⟨(j 0).val / 2000, by omega⟩
  obtain ⟨-, -, -, -, -, -, -, -, -, e0, e1⟩ := idx0 t
  have ht : t.val = (j 0).val / 2000 := rfl
  refine ⟨t, flush0_5 t, ?_⟩
  show j ∈ ((View.whole main_v25).slice (win0_5.rect t)).set
  rw [View.set_slice_whole, Rect.mem_set_unit]
  intro a
  match a with
  | ⟨0, _⟩ => show win0_5.index t (0 : Fin 2) * 2000 ≤ (j 0).val ∧ (j 0).val < win0_5.index t (0 : Fin 2) * 2000 + 2000; omega
  | ⟨1, _⟩ => show win0_5.index t (1 : Fin 2) * 128 ≤ (j 1).val ∧ (j 1).val < win0_5.index t (1 : Fin 2) * 128 + 128; omega

/-- The output array after the region: the layer of the arrays the region finds. -/
theorem value0 (c : Dev nD) :
    (dat0 V c).arrAt 5 cfg0.N
      = layerRelu (V c main_v24) (V c main_arg0) (V c main_arg2) (V c main_arg4) (V c main_arg3) :=
  (dat0 V c).arrAt_eq_of_cover 5 _ (fun t _ => flushed0 V c t) cover0

end Cert.KernelIdeal.Dense

end
-- ==== Proof.Region1.lean ====
/-
  What the second dense region leaves in its output array, as one function of the arrays the region finds at entry.

  The grid has 25 points; point `t` takes rows `2000·t … 2000·t + 1999` of the neighbour mean and of the node
  features, the whole of both weight matrices and of the bias, and writes back rows `2000·t …` of the output. So the
  output array's element `(p, q)` is the layer's value at `(p, q)` computed from row `p` of the two inputs: every
  block is a restriction of one whole-array function, and the 25 blocks tile the 50000 rows.
-/
import proofs.«168733_j53163105190283_1_alg».proof.Proof.KernelIdealFrameP
import proofs.«168733_j53163105190283_1_alg».proof.Proof.PayAt
import Idealize.ShloMosaic.Lib.Pipeline.Value

set_option maxRecDepth 16384

open scoped BigOperators

noncomputable section

namespace Cert.KernelIdeal.Dense

open Cert.KernelIdeal Cert.KernelIdeal.Gen Cert.KernelIdeal.GenP
open Idealize.ShloMosaic Idealize.ShloMosaic.TcCoe Idealize.ShloMosaic.ValueIdx Idealize.ShloMosaic.Pipeline
open Idealize.SL.Sem

variable (V : (c : Dev nD) → (b : Ref sig .tc) → Buf (Elt Ideal) ((c : Thread nD τ).loc b))

/-- The printed index maps over the grid: the row-blocked windows sit at block row `t`, column block 0; the
    weights and the bias at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The row of the array that row `i` of point `t`'s block is. -/
def row1 (t : Fin cfg1.N) (i : Fin 2000) : Fin 50000 :=
  ⟨t.val * 2000 + i.val, by have := t.isLt; have h : cfg1.N = 25 := N_1; have := i.isLt; omega⟩

theorem emb1_0 (t : Fin cfg1.N) (i : Fin 2000) (k : Fin 128) :
    ((cfg1.win 0).blk t).view.emb (ix2 i k) = ix2 (row1 t i) k := by
  obtain ⟨e0, e1, -⟩ := idx1 t
  funext a; apply Fin.ext
  match a with
  | ⟨0, _⟩ => show win1_0.index t (0 : Fin 2) * 2000 + 1 * i.val = t.val * 2000 + i.val; omega
  | ⟨1, _⟩ => show win1_0.index t (1 : Fin 2) * 128 + 1 * k.val = k.val; omega

theorem emb1_1 (t : Fin cfg1.N) (i : Fin 2000) (k : Fin 128) :
    ((cfg1.win 1).blk t).view.emb (ix2 i k) = ix2 (row1 t i) k := by
  obtain ⟨-, -, e0, e1, -⟩ := idx1 t
  funext a; apply Fin.ext
  match a with
  | ⟨0, _⟩ => show win1_1.index t (0 : Fin 2) * 2000 + 1 * i.val = t.val * 2000 + i.val; omega
  | ⟨1, _⟩ => show win1_1.index t (1 : Fin 2) * 128 + 1 * k.val = k.val; omega

theorem emb1_2 (t : Fin cfg1.N) (q : Fin 128) (k : Fin 128) :
    ((cfg1.win 2).blk t).view.emb (ix2 q k) = ix2 q k := by
  obtain ⟨-, -, -, -, e0, e1, -⟩ := idx1 t
  funext a; apply Fin.ext
  match a with
  | ⟨0, _⟩ => show win1_2.index t (0 : Fin 2) * 128 + 1 * q.val = q.val; omega
  | ⟨1, _⟩ => show win1_2.index t (1 : Fin 2) * 128 + 1 * k.val = k.val; omega

theorem emb1_3 (t : Fin cfg1.N) (q : Fin 128) (k : Fin 128) :
    ((cfg1.win 3).blk t).view.emb (ix2 q k) = ix2 q k := by
  obtain ⟨-, -, -, -, -, -, e0, e1, -⟩ := idx1 t
  funext a; apply Fin.ext
  match a with
  | ⟨0, _⟩ => show win1_3.index t (0 : Fin 2) * 128 + 1 * q.val = q.val; omega
  | ⟨1, _⟩ => show win1_3.index t (1 : Fin 2) * 128 + 1 * k.val = k.val; omega

theorem emb1_4 (t : Fin cfg1.N) (q : Fin 128) :
    ((cfg1.win 4).blk t).view.emb (ix1 q) = ix1 q := by
  obtain ⟨-, -, -, -, -, -, -, -, e0, -⟩ := idx1 t
  funext a; apply Fin.ext
  match a with
  | ⟨0, _⟩ => show win1_4.index t (0 : Fin 1) * 128 + 1 * q.val = q.val; omega

theorem emb1_5 (t : Fin cfg1.N) (i : Fin 2000) (q : Fin 128) :
    ((cfg1.win 5).blk t).view.emb (ix2 i q) = ix2 (row1 t i) q := by
  obtain ⟨-, -, -, -, -, -, -, -, -, e0, e1⟩ := idx1 t
  funext a; apply Fin.ext
  match a with
  | ⟨0, _⟩ => show win1_5.index t (0 : Fin 2) * 2000 + 1 * i.val = t.val * 2000 + i.val; omega
  | ⟨1, _⟩ => show win1_5.index t (1 : Fin 2) * 128 + 1 * q.val = q.val; omega

/-- What point `t` writes back is block `t` of the layer of the arrays the region finds. -/
theorem flushed1 (c : Dev nD) (t : Fin cfg1.N) :
    (dat1 V c).flushed 5 t = ((cfg1.win 5).blk t).view.read (Elt Ideal)
      (layerRelu (V c main_v38) (V c main_v25) (V c main_arg5) (V c main_arg7) (V c main_arg6)) := by
  show (cfg1.win 5).cut (grid1.coords t) ((dat1 V c).after 5 t) = _
  rw [after1_5]
  unfold out1_5
  rw [View.canon_unit_zero zero2]
  simp only [View.ld_unit_zero (S := S2000x128) zero2, View.ld_unit_zero (S := S128x128) zero2, View.ld_unit_zero (S := S128) zero1]
  funext y
  obtain ⟨i, q, rfl⟩ : ∃ (i : Fin 2000) (q : Fin 128), y = ix2 i q := ⟨y 0, y 1, eq_ix2 y⟩
  show k1_pay1 (iblk1 V c 0 t) (iblk1 V c 1 t) (iblk1 V c 2 t) (iblk1 V c 3 t) (iblk1 V c 4 t) (ix2 i q)
    = layerRelu (V c main_v38) (V c main_v25) (V c main_arg5) (V c main_arg7) (V c main_arg6) (((cfg1.win 5).blk t).view.emb (ix2 i q))
  refine (pay1_apply _ _ _ _ _ i q).trans ?_
  rw [emb1_5]
  show max (affineAt (iblk1 V c 0 t) (iblk1 V c 1 t) (iblk1 V c 2 t) (iblk1 V c 3 t) (iblk1 V c 4 t) i q) 0
    = max (affineAt (V c main_v38) (V c main_v25) (V c main_arg5) (V c main_arg7) (V c main_arg6) (row1 t i) q) 0
  unfold affineAt
  refine congrArg (max · 0) (congrArg₂ HAdd.hAdd (congrArg₂ HAdd.hAdd
    (Finset.sum_congr rfl fun k _ => ?_) (Finset.sum_congr rfl fun k _ => ?_)) ?_)
  · exact congrArg₂ HMul.hMul (congrArg (V c main_v38) (emb1_0 t i k)) (congrArg (V c main_arg5) (emb1_2 t q k))
  · exact congrArg₂ HMul.hMul (congrArg (V c main_v25) (emb1_1 t i k)) (congrArg (V c main_arg7) (emb1_3 t q k))
  · exact congrArg (V c main_arg6) (emb1_4 t q)

/-- Every index of the output array is in the block of the point its row falls in. -/
theorem cover1 (j : S50000x128.Idx) :
    ∃ t : Fin cfg1.N, (cfg1.win 5).flush t = true ∧ j ∈ ((cfg1.win 5).blk t).view.set := by
  have hp : (j 0).val < 50000 := (j 0).isLt
  have hq : (j 1).val < 128 := (j 1).isLt
  have hN : cfg1.N = 25 := N_1
  let t : Fin cfg1.N := ⟨(j 0).val / 2000, by omega⟩
  obtain ⟨-, -, -, -, -, -, -, -, -, e0, e1⟩ := idx1 t
  have ht : t.val = (j 0).val / 2000 := rfl
  refine ⟨t, flush1_5 t, ?_⟩
  show j ∈ ((View.whole main_v39).slice (win1_5.rect t)).set
  rw [View.set_slice_whole, Rect.mem_set_unit]
  intro a
  match a with
  | ⟨0, _⟩ => show win1_5.index t (0 : Fin 2) * 2000 ≤ (j 0).val ∧ (j 0).val < win1_5.index t (0 : Fin 2) * 2000 + 2000; omega
  | ⟨1, _⟩ => show win1_5.index t (1 : Fin 2) * 128 ≤ (j 1).val ∧ (j 1).val < win1_5.index t (1 : Fin 2) * 128 + 128; omega

/-- The output array after the region: the layer of the arrays the region finds. -/
theorem value1 (c : Dev nD) :
    (dat1 V c).arrAt 5 cfg1.N
      = layerRelu (V c main_v38) (V c main_v25) (V c main_arg5) (V c main_arg7) (V c main_arg6) :=
  (dat1 V c).arrAt_eq_of_cover 5 _ (fun t _ => flushed1 V c t) cover1

end Cert.KernelIdeal.Dense

end
-- ==== Proof.Region2.lean ====
/-
  What the last dense region leaves in its output array, as one function of the arrays the region finds at entry.

  The grid has 25 points; point `t` takes rows `2000·t … 2000·t + 1999` of the neighbour mean and of the node
  features, the whole of both 256 × 128 weight matrices and of the bias, and writes back rows `2000·t …` of the 256 output
  features (this layer is not clamped). So the
  output array's element `(p, q)` is the layer's value at `(p, q)` computed from row `p` of the two inputs: every
  block is a restriction of one whole-array function, and the 25 blocks tile the 50000 rows.
-/
import proofs.«168733_j53163105190283_1_alg».proof.Proof.KernelIdealFrameP
import proofs.«168733_j53163105190283_1_alg».proof.Proof.PayAt
import Idealize.ShloMosaic.Lib.Pipeline.Value

set_option maxRecDepth 16384

open scoped BigOperators

noncomputable section

namespace Cert.KernelIdeal.Dense

open Cert.KernelIdeal Cert.KernelIdeal.Gen Cert.KernelIdeal.GenP
open Idealize.ShloMosaic Idealize.ShloMosaic.TcCoe Idealize.ShloMosaic.ValueIdx Idealize.ShloMosaic.Pipeline
open Idealize.SL.Sem

variable (V : (c : Dev nD) → (b : Ref sig .tc) → Buf (Elt Ideal) ((c : Thread nD τ).loc b))

/-- The printed index maps over the grid: the row-blocked windows sit at block row `t`, column block 0; the
    weights and the bias at block 0. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- The row of the array that row `i` of point `t`'s block is. -/
def row2 (t : Fin cfg2.N) (i : Fin 2000) : Fin 50000 :=
  ⟨t.val * 2000 + i.val, by have := t.isLt; have h : cfg2.N = 25 := N_2; have := i.isLt; omega⟩

theorem emb2_0 (t : Fin cfg2.N) (i : Fin 2000) (k : Fin 128) :
    ((cfg2.win 0).blk t).view.emb (ix2 i k) = ix2 (row2 t i) k := by
  obtain ⟨e0, e1, -⟩ := idx2 t
  funext a; apply Fin.ext
  match a with
  | ⟨0, _⟩ => show win2_0.index t (0 : Fin 2) * 2000 + 1 * i.val = t.val * 2000 + i.val; omega
  | ⟨1, _⟩ => show win2_0.index t (1 : Fin 2) * 128 + 1 * k.val = k.val; omega

theorem emb2_1 (t : Fin cfg2.N) (i : Fin 2000) (k : Fin 128) :
    ((cfg2.win 1).blk t).view.emb (ix2 i k) = ix2 (row2 t i) k := by
  obtain ⟨-, -, e0, e1, -⟩ := idx2 t
  funext a; apply Fin.ext
  match a with
  | ⟨0, _⟩ => show win2_1.index t (0 : Fin 2) * 2000 + 1 * i.val = t.val * 2000 + i.val; omega
  | ⟨1, _⟩ => show win2_1.index t (1 : Fin 2) * 128 + 1 * k.val = k.val; omega

theorem emb2_2 (t : Fin cfg2.N) (q : Fin 256) (k : Fin 128) :
    ((cfg2.win 2).blk t).view.emb (ix2 q k) = ix2 q k := by
  obtain ⟨-, -, -, -, e0, e1, -⟩ := idx2 t
  funext a; apply Fin.ext
  match a with
  | ⟨0, _⟩ => show win2_2.index t (0 : Fin 2) * 256 + 1 * q.val = q.val; omega
  | ⟨1, _⟩ => show win2_2.index t (1 : Fin 2) * 128 + 1 * k.val = k.val; omega

theorem emb2_3 (t : Fin cfg2.N) (q : Fin 256) (k : Fin 128) :
    ((cfg2.win 3).blk t).view.emb (ix2 q k) = ix2 q k := by
  obtain ⟨-, -, -, -, -, -, e0, e1, -⟩ := idx2 t
  funext a; apply Fin.ext
  match a with
  | ⟨0, _⟩ => show win2_3.index t (0 : Fin 2) * 256 + 1 * q.val = q.val; omega
  | ⟨1, _⟩ => show win2_3.index t (1 : Fin 2) * 128 + 1 * k.val = k.val; omega

theorem emb2_4 (t : Fin cfg2.N) (q : Fin 256) :
    ((cfg2.win 4).blk t).view.emb (ix1 q) = ix1 q := by
  obtain ⟨-, -, -, -, -, -, -, -, e0, -⟩ := idx2 t
  funext a; apply Fin.ext
  match a with
  | ⟨0, _⟩ => show win2_4.index t (0 : Fin 1) * 256 + 1 * q.val = q.val; omega

theorem emb2_5 (t : Fin cfg2.N) (i : Fin 2000) (q : Fin 256) :
    ((cfg2.win 5).blk t).view.emb (ix2 i q) = ix2 (row2 t i) q := by
  obtain ⟨-, -, -, -, -, -, -, -, -, e0, e1⟩ := idx2 t
  funext a; apply Fin.ext
  match a with
  | ⟨0, _⟩ => show win2_5.index t (0 : Fin 2) * 2000 + 1 * i.val = t.val * 2000 + i.val; omega
  | ⟨1, _⟩ => show win2_5.index t (1 : Fin 2) * 256 + 1 * q.val = q.val; omega

/-- What point `t` writes back is block `t` of the layer of the arrays the region finds. -/
theorem flushed2 (c : Dev nD) (t : Fin cfg2.N) :
    (dat2 V c).flushed 5 t = ((cfg2.win 5).blk t).view.read (Elt Ideal)
      (layerLast (V c main_v52) (V c main_v39) (V c main_arg8) (V c main_arg10) (V c main_arg9)) := by
  show (cfg2.win 5).cut (grid2.coords t) ((dat2 V c).after 5 t) = _
  rw [after2_5]
  unfold out2_5
  rw [View.canon_unit_zero zero2]
  simp only [View.ld_unit_zero (S := S2000x128) zero2, View.ld_unit_zero (S := S256x128) zero2, View.ld_unit_zero (S := S256) zero1]
  funext y
  obtain ⟨i, q, rfl⟩ : ∃ (i : Fin 2000) (q : Fin 256), y = ix2 i q := ⟨y 0, y 1, eq_ix2 y⟩
  show k2_pay1 (iblk2 V c 0 t) (iblk2 V c 1 t) (iblk2 V c 2 t) (iblk2 V c 3 t) (iblk2 V c 4 t) (ix2 i q)
    = layerLast (V c main_v52) (V c main_v39) (V c main_arg8) (V c main_arg10) (V c main_arg9) (((cfg2.win 5).blk t).view.emb (ix2 i q))
  refine (pay2_apply _ _ _ _ _ i q).trans ?_
  rw [emb2_5]
  show affineAt (iblk2 V c 0 t) (iblk2 V c 1 t) (iblk2 V c 2 t) (iblk2 V c 3 t) (iblk2 V c 4 t) i q
    = affineAt (V c main_v52) (V c main_v39) (V c main_arg8) (V c main_arg10) (V c main_arg9) (row2 t i) q
  unfold affineAt
  refine congrArg₂ HAdd.hAdd (congrArg₂ HAdd.hAdd
    (Finset.sum_congr rfl fun k _ => ?_) (Finset.sum_congr rfl fun k _ => ?_)) ?_
  · exact congrArg₂ HMul.hMul (congrArg (V c main_v52) (emb2_0 t i k)) (congrArg (V c main_arg8) (emb2_2 t q k))
  · exact congrArg₂ HMul.hMul (congrArg (V c main_v39) (emb2_1 t i k)) (congrArg (V c main_arg10) (emb2_3 t q k))
  · exact congrArg (V c main_arg9) (emb2_4 t q)

/-- Every index of the output array is in the block of the point its row falls in. -/
theorem cover2 (j : S50000x256.Idx) :
    ∃ t : Fin cfg2.N, (cfg2.win 5).flush t = true ∧ j ∈ ((cfg2.win 5).blk t).view.set := by
  have hp : (j 0).val < 50000 := (j 0).isLt
  have hq : (j 1).val < 256 := (j 1).isLt
  have hN : cfg2.N = 25 := N_2
  let t : Fin cfg2.N := ⟨(j 0).val / 2000, by omega⟩
  obtain ⟨-, -, -, -, -, -, -, -, -, e0, e1⟩ := idx2 t
  have ht : t.val = (j 0).val / 2000 := rfl
  refine ⟨t, flush2_5 t, ?_⟩
  show j ∈ ((View.whole main_v53).slice (win2_5.rect t)).set
  rw [View.set_slice_whole, Rect.mem_set_unit]
  intro a
  match a with
  | ⟨0, _⟩ => show win2_5.index t (0 : Fin 2) * 2000 ≤ (j 0).val ∧ (j 0).val < win2_5.index t (0 : Fin 2) * 2000 + 2000; omega
  | ⟨1, _⟩ => show win2_5.index t (1 : Fin 2) * 256 ≤ (j 1).val ∧ (j 1).val < win2_5.index t (1 : Fin 2) * 256 + 256; omega

/-- The output array after the region: the layer of the arrays the region finds. -/
theorem value2 (c : Dev nD) :
    (dat2 V c).arrAt 5 cfg2.N
      = layerLast (V c main_v52) (V c main_v39) (V c main_arg8) (V c main_arg10) (V c main_arg9) :=
  (dat2 V c).arrAt_eq_of_cover 5 _ (fun t _ => flushed2 V c t) cover2

end Cert.KernelIdeal.Dense

end
-- ==== Proof.KernelValue.lean ====
/-
  The kernel's result as one function of its arguments.

  Each of the three layers takes the current features `h`, forms the neighbour mean (the aggregate over incoming
  edges times the reciprocal of `max(degree, 1)`) on the host, and runs a dense region on the mean and `h`. The edge
  lists and the reciprocal are computed once, before the first region, and no region or later stretch overwrites
  them; each region's output array is the next layer's `h`. Walking the buffers through the three stretches and the
  three regions gives the result array as `stepLast (step (step x))`.
-/
import proofs.«168733_j53163105190283_1_alg».proof.Proof.KernelIdealRunNamed
import proofs.«168733_j53163105190283_1_alg».proof.Proof.Stretch
import proofs.«168733_j53163105190283_1_alg».proof.Proof.KernelOut
import proofs.«168733_j53163105190283_1_alg».proof.Proof.Region0
import proofs.«168733_j53163105190283_1_alg».proof.Proof.Region1
import proofs.«168733_j53163105190283_1_alg».proof.Proof.Region2

set_option maxRecDepth 16384

noncomputable section

namespace Cert.KernelIdeal.Dense

open Cert.KernelIdeal Cert.KernelIdeal.Gen Cert.KernelIdeal.GenP
open Idealize.ShloMosaic Idealize.ShloMosaic.TcCoe Idealize.ShloMosaic.Pipeline
open Idealize.SL.Sem

variable (m : (ℓ : Loc nD τ sig) → Buf (Elt Ideal) ℓ) (ρ : Dev nD → PrngReg)

/-! ## At the first region's entry -/

theorem V1_v1 (c : Dev nD) : V1 m ρ c main_v1 = srcOf (m ((c : Thread nD τ).loc main_arg1)) := stretch0_v1 (W0 m ρ c)
theorem V1_v3 (c : Dev nD) : V1 m ρ c main_v3 = dstOf (m ((c : Thread nD τ).loc main_arg1)) := stretch0_v3 (W0 m ρ c)
theorem V1_v11 (c : Dev nD) : V1 m ρ c main_v11 = invDegree (dstOf (m ((c : Thread nD τ).loc main_arg1))) := stretch0_v11 (W0 m ρ c)
theorem V1_v24 (c : Dev nD) :
    V1 m ρ c main_v24 = meanTimes (m ((c : Thread nD τ).loc main_arg0)) (srcOf (m ((c : Thread nD τ).loc main_arg1))) (dstOf (m ((c : Thread nD τ).loc main_arg1))) (invDegree (dstOf (m ((c : Thread nD τ).loc main_arg1)))) := stretch0_v24 (W0 m ρ c)
theorem V1_arg0 (c : Dev nD) : V1 m ρ c main_arg0 = m ((c : Thread nD τ).loc main_arg0) := keep0_arg0 (W0 m ρ c)
theorem V1_arg2 (c : Dev nD) : V1 m ρ c main_arg2 = m ((c : Thread nD τ).loc main_arg2) := keep0_arg2 (W0 m ρ c)
theorem V1_arg3 (c : Dev nD) : V1 m ρ c main_arg3 = m ((c : Thread nD τ).loc main_arg3) := keep0_arg3 (W0 m ρ c)
theorem V1_arg4 (c : Dev nD) : V1 m ρ c main_arg4 = m ((c : Thread nD τ).loc main_arg4) := keep0_arg4 (W0 m ρ c)

/-! ## After the first region -/

theorem W2_v25 (c : Dev nD) : W2 m ρ c (Proc.devRef .tc main_v25) = step (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans ((value0 (V1 m ρ) c).trans
    (layerRelu_congr (V1_v24 m ρ c) (V1_arg0 m ρ c) (V1_arg2 m ρ c) (V1_arg4 m ρ c) (V1_arg3 m ρ c)))
theorem W2_v1 (c : Dev nD) : W2 m ρ c (Proc.devRef .tc main_v1) = srcOf (m ((c : Thread nD τ).loc main_arg1)) :=
  (W2_of_ne m ρ c main_v1 (by decide)).trans (V1_v1 m ρ c)
theorem W2_v3 (c : Dev nD) : W2 m ρ c (Proc.devRef .tc main_v3) = dstOf (m ((c : Thread nD τ).loc main_arg1)) :=
  (W2_of_ne m ρ c main_v3 (by decide)).trans (V1_v3 m ρ c)
theorem W2_v11 (c : Dev nD) : W2 m ρ c (Proc.devRef .tc main_v11) = invDegree (dstOf (m ((c : Thread nD τ).loc main_arg1))) :=
  (W2_of_ne m ρ c main_v11 (by decide)).trans (V1_v11 m ρ c)
theorem W2_arg5 (c : Dev nD) : W2 m ρ c (Proc.devRef .tc main_arg5) = m ((c : Thread nD τ).loc main_arg5) :=
  (W2_of_ne m ρ c main_arg5 (by decide)).trans (keep0_arg5 (W0 m ρ c))
theorem W2_arg6 (c : Dev nD) : W2 m ρ c (Proc.devRef .tc main_arg6) = m ((c : Thread nD τ).loc main_arg6) :=
  (W2_of_ne m ρ c main_arg6 (by decide)).trans (keep0_arg6 (W0 m ρ c))
theorem W2_arg7 (c : Dev nD) : W2 m ρ c (Proc.devRef .tc main_arg7) = m ((c : Thread nD τ).loc main_arg7) :=
  (W2_of_ne m ρ c main_arg7 (by decide)).trans (keep0_arg7 (W0 m ρ c))
theorem W2_arg8 (c : Dev nD) : W2 m ρ c (Proc.devRef .tc main_arg8) = m ((c : Thread nD τ).loc main_arg8) :=
  (W2_of_ne m ρ c main_arg8 (by decide)).trans (keep0_arg8 (W0 m ρ c))
theorem W2_arg9 (c : Dev nD) : W2 m ρ c (Proc.devRef .tc main_arg9) = m ((c : Thread nD τ).loc main_arg9) :=
  (W2_of_ne m ρ c main_arg9 (by decide)).trans (keep0_arg9 (W0 m ρ c))
theorem W2_arg10 (c : Dev nD) : W2 m ρ c (Proc.devRef .tc main_arg10) = m ((c : Thread nD τ).loc main_arg10) :=
  (W2_of_ne m ρ c main_arg10 (by decide)).trans (keep0_arg10 (W0 m ρ c))

/-! ## At the second region's entry -/

theorem V3_v38 (c : Dev nD) :
    V3 m ρ c main_v38 = meanTimes (step (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) (invDegree (dstOf (m ((c : Thread nD τ).loc main_arg1)))) :=
  (stretch1_v38 (W2 m ρ c)).trans (meanTimes_congr (W2_v25 m ρ c) (W2_v1 m ρ c) (W2_v3 m ρ c) (W2_v11 m ρ c))
theorem V3_v25 (c : Dev nD) : V3 m ρ c main_v25 = (step (m ((c : Thread nD τ).loc main_arg0)) (m ((c : Thread nD τ).loc main_arg1)) (m ((c : Thread nD τ).loc main_arg2)) (m ((c : Thread nD τ).loc main_arg3)) (m ((c : Thread nD τ).loc main_arg4))) := (keep1_v25 (W2 m ρ c)).trans (W2_v25 m ρ c)
theorem V3_arg5 (c : Dev nD) : V3 m ρ c main_arg5 = m ((c : Thread nD τ).loc main_arg5) :=
  (keep1_arg5 (W2 m ρ c)).trans (W2_arg5 m ρ c)
theorem V3_arg6 (c : Dev nD) : V3 m ρ c main_arg6 = m ((c : Thread nD τ).loc main_arg6) :=
  (keep1_arg6 (W2 m ρ c)).trans (W2_arg6 m ρ c)
theorem V3_arg7 (c : Dev nD) : V3 m ρ c main_arg7 = m ((c : Thread nD τ).loc main_arg7) :=
  (keep1_arg7 (W2 m ρ c)).trans (W2_arg7 m ρ c)

/-! ## After the second region -/

theorem W4_v39 (c : Dev nD) : W4 m ρ c (Proc.devRef .tc main_v39) = (step (step (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) :=
  (W4_arr m ρ c 5).trans ((value1 (V3 m ρ) c).trans
    (layerRelu_congr (V3_v38 m ρ c) (V3_v25 m ρ c) (V3_arg5 m ρ c) (V3_arg7 m ρ c) (V3_arg6 m ρ c)))
theorem W4_v1 (c : Dev nD) : W4 m ρ c (Proc.devRef .tc main_v1) = srcOf (m ((c : Thread nD τ).loc main_arg1)) :=
  (W4_of_ne m ρ c main_v1 (by decide)).trans ((keep1_v1 (W2 m ρ c)).trans (W2_v1 m ρ c))
theorem W4_v3 (c : Dev nD) : W4 m ρ c (Proc.devRef .tc main_v3) = dstOf (m ((c : Thread nD τ).loc main_arg1)) :=
  (W4_of_ne m ρ c main_v3 (by decide)).trans ((keep1_v3 (W2 m ρ c)).trans (W2_v3 m ρ c))
theorem W4_v11 (c : Dev nD) : W4 m ρ c (Proc.devRef .tc main_v11) = invDegree (dstOf (m ((c : Thread nD τ).loc main_arg1))) :=
  (W4_of_ne m ρ c main_v11 (by decide)).trans ((keep1_v11 (W2 m ρ c)).trans (W2_v11 m ρ c))
theorem W4_arg8 (c : Dev nD) : W4 m ρ c (Proc.devRef .tc main_arg8) = m ((c : Thread nD τ).loc main_arg8) :=
  (W4_of_ne m ρ c main_arg8 (by decide)).trans ((keep1_arg8 (W2 m ρ c)).trans (W2_arg8 m ρ c))
theorem W4_arg9 (c : Dev nD) : W4 m ρ c (Proc.devRef .tc main_arg9) = m ((c : Thread nD τ).loc main_arg9) :=
  (W4_of_ne m ρ c main_arg9 (by decide)).trans ((keep1_arg9 (W2 m ρ c)).trans (W2_arg9 m ρ c))
theorem W4_arg10 (c : Dev nD) : W4 m ρ c (Proc.devRef .tc main_arg10) = m ((c : Thread nD τ).loc main_arg10) :=
  (W4_of_ne m ρ c main_arg10 (by decide)).trans ((keep1_arg10 (W2 m ρ c)).trans (W2_arg10 m ρ c))

/-! ## At the last region's entry -/

theorem V5_v52 (c : Dev nD) :
    V5 m ρ c main_v52 = meanTimes (step (step (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (srcOf (m ((c : Thread nD τ).loc main_arg1))) (dstOf (m ((c : Thread nD τ).loc main_arg1))) (invDegree (dstOf (m ((c : Thread nD τ).loc main_arg1)))) :=
  (stretch2_v52 (W4 m ρ c)).trans (meanTimes_congr (W4_v39 m ρ c) (W4_v1 m ρ c) (W4_v3 m ρ c) (W4_v11 m ρ c))
theorem V5_v39 (c : Dev nD) : V5 m ρ c main_v39 = (step (step (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) := (keep2_v39 (W4 m ρ c)).trans (W4_v39 m ρ c)
theorem V5_arg8 (c : Dev nD) : V5 m ρ c main_arg8 = m ((c : Thread nD τ).loc main_arg8) :=
  (keep2_arg8 (W4 m ρ c)).trans (W4_arg8 m ρ c)
theorem V5_arg9 (c : Dev nD) : V5 m ρ c main_arg9 = m ((c : Thread nD τ).loc main_arg9) :=
  (keep2_arg9 (W4 m ρ c)).trans (W4_arg9 m ρ c)
theorem V5_arg10 (c : Dev nD) : V5 m ρ c main_arg10 = m ((c : Thread nD τ).loc main_arg10) :=
  (keep2_arg10 (W4 m ρ c)).trans (W4_arg10 m ρ c)

/-! ## The result -/

/-- The result array after the last region is the three layers applied to the arguments. -/
theorem W6_v53 (c : Dev nD) : W6 m ρ c (Proc.devRef .tc main_v53) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_arr m ρ c 5).trans ((value2 (V5 m ρ) c).trans
    (layerLast_congr (V5_v52 m ρ c) (V5_v39 m ρ c) (V5_arg8 m ρ c) (V5_arg10 m ρ c) (V5_arg9 m ρ c)))

/-- Every weakly fair execution of the kernel's program terminates, nothing faulting, with the result array at
    `out` of the argument arrays and the argument arrays as launched. -/
theorem run : θ_run defs (onTc (τ := τ) (main (F := Ideal))) ⟨m, fun _ => 0, ρ⟩ (fun r => ∀ c : Dev nD,
      r.2.mem ((c.tc : Thread nD τ).loc main_v53) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (W6_v53 m ρ c), (h c).2⟩) (run_named m ρ)

end Cert.KernelIdeal.Dense

end
-- ==== Proof.RefValue.lean ====
/-
  The reference's result as a composition of three layers, and each layer read at one element.

  A layer gathers the rows of the current features named by the edges' sources, sums them into the destination rows,
  divides row `p` by `max(degree p, 1)`, and returns `(mean·Wlᵀ + b) + h·Wrᵀ`; the two hidden layers clamp the result
  below at zero. The source and destination lists, and the degree, are the same in all three layers.
-/
import proofs.«168733_j53163105190283_1_alg».proof.Proof.Gen.ReferenceIdeal.Run
import proofs.«168733_j53163105190283_1_alg».proof.Proof.LibPlainDot
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option maxRecDepth 16384

open scoped BigOperators

noncomputable section

namespace Cert.ReferenceIdeal.Layers

open Cert.ReferenceIdeal Cert.ReferenceIdeal.Gen Cert.ReferenceIdeal.Value
open Idealize.ShloMosaic Idealize.ShloMosaic.TcCoe Idealize.ShloMosaic.ValueIdx Idealize.ShloMosaic.Pipeline
open Idealize.SL.Sem

section AnyFloats

variable {F : FTy → Type} [FloatOps F]

/-- The edges' sources: row 0 of the edge list. -/
def srcOf (e : IVec S2x800000 32) : IVec S800000 32 :=
  shapeCast S800000 (extractStridedSlice S1x800000 ![0, 0] e slices_S2x800000_S1x800000_0_0) shapeCasts_S1x800000_S800000

/-- The edges' destinations: row 1 of the edge list. -/
def dstOf (e : IVec S2x800000 32) : IVec S800000 32 :=
  shapeCast S800000 (extractStridedSlice S1x800000 ![1, 0] e slices_S2x800000_S1x800000_1_0) shapeCasts_S1x800000_S800000

/-- The gather's start indices: a negative source wraps once by the row count. -/
def srcIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The scatter's indices: the destinations as a column. -/
def dstIdx (d : IVec S800000 32) : IVec S800000x1 32 := broadcastInDim S800000x1 ![0] bcast_S800000_S800000x1_0 d

/-- The sum over incoming edges of the source rows. -/
def aggregate (h : FVec F S50000x128 .f32) (s d : IVec S800000 32) : FVec F S50000x128 .f32 :=
  Host.scatterAdd scatter_S50000x128_S800000x1_S800000x128_1_0_0_1
    (broadcastInDim S50000x128 ![] bcast_S_S50000x128 (constant (F := F) S_ .f32 0x00000000#32)) (dstIdx d)
    (Host.gather gather_S50000x128_S800000x1_S800000x128_1_0_n_n_0_1_1128 h (srcIdx s))

/-- A per-row value spread along the 128 features. -/
def alongRows (v : FVec F S50000 .f32) : FVec F S50000x128 .f32 :=
  broadcastInDim S50000x128 ![0, 1] bcast_S50000x1_S50000x128_0_1 (broadcastInDim S50000x1 ![0] bcast_S50000_S50000x1_0 v)

/-- `max(degree, 1)` per row: the number of incoming edges, at least one. -/
def degree (d : IVec S800000 32) : FVec F S50000 .f32 :=
  maximumf
    (Host.scatterAdd scatter_S50000_S800000x1_S800000_n_0_0_1
      (broadcastInDim S50000 ![] bcast_S_S50000 (constant (F := F) S_ .f32 0x00000000#32)) (dstIdx d)
      (broadcastInDim S800000 ![] bcast_S_S800000 (constant (F := F) S_ .f32 0x3F800000#32)))
    (broadcastInDim S50000 ![] bcast_S_S50000 (constant (F := F) S_ .f32 0x3F800000#32))

/-- The neighbour mean: the aggregate divided by the spread `max(degree, 1)`. -/
def meanOver (h : FVec F S50000x128 .f32) (s d : IVec S800000 32) : FVec F S50000x128 .f32 :=
  Host.divf (aggregate h s d) (alongRows (degree (F := F) d))

/-- The zero array a hidden layer is clamped against. -/
def zeros128 : FVec F S50000x128 .f32 := broadcastInDim S50000x128 ![] bcast_S_S50000x128 (constant (F := F) S_ .f32 0x00000000#32)

/-- The bias as a row, repeated down the rows. -/
def biasRows128 (b : FVec F S128 .f32) : FVec F S50000x128 .f32 :=
  broadcastInDim S50000x128 ![0, 1] bcast_S1x128_S50000x128_0_1 (broadcastInDim S1x128 ![1] bcast_S128_S1x128_1 b)

def biasRows256 (b : FVec F S256 .f32) : FVec F S50000x256 .f32 :=
  broadcastInDim S50000x256 ![0, 1] bcast_S1x256_S50000x256_0_1 (broadcastInDim S1x256 ![1] bcast_S256_S1x256_1 b)

/-- The dense part of a hidden layer, of a given mean array: `relu((mean·Wlᵀ + b) + h·Wrᵀ)`. -/
def denseHidden (mn h : FVec F S50000x128 .f32) (wl : FVec F S128x128 .f32) (b : FVec F S128 .f32)
    (wr : FVec F S128x128 .f32) : FVec F S50000x128 .f32 :=
  maximumf
    (addf
      (addf
        (Host.dotGeneral dot_S50000x128_S128x128_S50000x128_1_0_0_1_n_n none mn
          (transpose S128x128 [1, 0] wl transposes_S128x128_S128x128_1_0))
        (biasRows128 b))
      (Host.dotGeneral dot_S50000x128_S128x128_S50000x128_1_0_0_1_n_n none h
        (transpose S128x128 [1, 0] wr transposes_S128x128_S128x128_1_0)))
    zeros128

/-- A hidden layer: the dense part of the neighbour mean and the features. -/
def hidden (h : FVec F S50000x128 .f32) (s d : IVec S800000 32) (wl : FVec F S128x128 .f32) (b : FVec F S128 .f32)
    (wr : FVec F S128x128 .f32) : FVec F S50000x128 .f32 :=
  denseHidden (meanOver h s d) h wl b wr

/-- The dense part of the last layer, of a given mean array: `(mean·Wlᵀ + b) + h·Wrᵀ` with 256 output features. -/
def denseLast (mn h : FVec F S50000x128 .f32) (wl : FVec F S256x128 .f32) (b : FVec F S256 .f32)
    (wr : FVec F S256x128 .f32) : FVec F S50000x256 .f32 :=
  addf
    (addf
      (Host.dotGeneral dot_S50000x128_S128x256_S50000x256_1_0_0_1_n_n none mn
        (transpose S128x256 [1, 0] wl transposes_S256x128_S128x256_1_0))
      (biasRows256 b))
    (Host.dotGeneral dot_S50000x128_S128x256_S50000x256_1_0_0_1_n_n none h
      (transpose S128x256 [1, 0] wr transposes_S256x128_S128x256_1_0))

/-- The last layer. -/
def last (h : FVec F S50000x128 .f32) (s d : IVec S800000 32) (wl : FVec F S256x128 .f32) (b : FVec F S256 .f32)
    (wr : FVec F S256x128 .f32) : FVec F S50000x256 .f32 :=
  denseLast (meanOver h s d) h wl b wr

/-- The whole reference: three layers over the same edge lists. -/
def out (x : FVec F S50000x128 .f32) (e : IVec S2x800000 32) (wl0 : FVec F S128x128 .f32) (b0 : FVec F S128 .f32)
    (wr0 wl1 : FVec F S128x128 .f32) (b1 : FVec F S128 .f32) (wr1 : FVec F S128x128 .f32) (wl2 : FVec F S256x128 .f32)
    (b2 : FVec F S256 .f32) (wr2 : FVec F S256x128 .f32) : FVec F S50000x256 .f32 :=
  last (hidden (hidden x (srcOf e) (dstOf e) wl0 b0 wr0) (srcOf e) (dstOf e) wl1 b1 wr1) (srcOf e) (dstOf e) wl2 b2 wr2

set_option maxHeartbeats 4000000 in
/-- The run's composed term is that composition. -/
theorem res_eq (m : (ℓ : Loc nD τ sig) → Buf (Elt F) ℓ) (c : Dev nD) :
    res_main_v86 m c
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold res_main_v86
  rfl

end AnyFloats

end Cert.ReferenceIdeal.Layers

end
-- ==== Proof.RefAt.lean ====
/-
  The reference's layers read at one element, at the ideal values: each of the two contractions is a sum over the 128
  input features of the operand's row times the weight's row (the weight enters transposed), the bias is repeated down
  the rows, and the clamp is against the zero array.
-/
import proofs.«168733_j53163105190283_1_alg».proof.Proof.RefValue
import proofs.«168733_j53163105190283_1_alg».proof.Proof.LibPlainDot
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option maxRecDepth 16384

open scoped BigOperators

noncomputable section

namespace Cert.ReferenceIdeal.Layers

open Cert.ReferenceIdeal Cert.ReferenceIdeal.Gen
open Idealize.ShloMosaic Idealize.ShloMosaic.TcCoe Idealize.ShloMosaic.ValueIdx Idealize.ShloMosaic.Pipeline

/-! ## The layers at one element, at the ideal values -/

theorem zeros128_apply (j : S50000x128.Idx) : zeros128 (F := Ideal) j = 0 := by
  unfold zeros128
  rw [broadcastInDim_apply _ _ _ j (fun a => a.elim0) (fun a => a.elim0)]
  exact (constant_apply _ _).trans Ideal.ofBits_zero_f32

theorem biasRows128_apply (b : FVec Ideal S128 .f32) (p : Fin 50000) (q : Fin 128) :
    biasRows128 b (ix2 p q) = b (ix1 q) := by
  unfold biasRows128
  rw [broadcastInDim_apply _ _ _ (ix2 p q) (ix2 (0 : Fin 1) q) (fun a => by
    match a with
    | ⟨0, _⟩ => rfl
    | ⟨1, _⟩ => rfl)]
  exact broadcastInDim_apply _ _ _ _ (ix1 q) (fun a => by
    match a with
    | ⟨0, _⟩ => rfl)

theorem biasRows256_apply (b : FVec Ideal S256 .f32) (p : Fin 50000) (q : Fin 256) :
    biasRows256 b (ix2 p q) = b (ix1 q) := by
  unfold biasRows256
  rw [broadcastInDim_apply _ _ _ (ix2 p q) (ix2 (0 : Fin 1) q) (fun a => by
    match a with
    | ⟨0, _⟩ => rfl
    | ⟨1, _⟩ => rfl)]
  exact broadcastInDim_apply _ _ _ _ (ix1 q) (fun a => by
    match a with
    | ⟨0, _⟩ => rfl)

/-- The dense part of a hidden layer at `(p, q)`: the two contractions over the 128 input features, the bias between them, clamped. -/
theorem denseHidden_apply (mn h : FVec Ideal S50000x128 .f32) (wl : FVec Ideal S128x128 .f32)
    (b : FVec Ideal S128 .f32) (wr : FVec Ideal S128x128 .f32) (p : Fin 50000) (q : Fin 128) :
    denseHidden mn h wl b wr (ix2 p q)
      = max (((∑ k : Fin 128, mn (ix2 p k) * wl (ix2 q k)) + b (ix1 q))
          + ∑ k : Fin 128, h (ix2 p k) * wr (ix2 q k)) 0 := by
  unfold denseHidden
  simp only [maximumf_apply, addf_apply]
  rw [PlainDot.dotGeneral_apply dot_S50000x128_S128x128_S50000x128_1_0_0_1_n_n rfl rfl rfl rfl rfl rfl rfl rfl,
    PlainDot.dotGeneral_apply dot_S50000x128_S128x128_S50000x128_1_0_0_1_n_n rfl rfl rfl rfl rfl rfl rfl rfl,
    zeros128_apply, biasRows128_apply]
  refine congrArg (max · 0) (congrArg₂ HAdd.hAdd (congrArg₂ HAdd.hAdd (Finset.sum_congr rfl fun k _ => ?_) rfl)
    (Finset.sum_congr rfl fun k _ => ?_))
  · exact congrArg (mn (ix2 p k) * ·) (transpose_ix2_apply wl _ k q)
  · exact congrArg (h (ix2 p k) * ·) (transpose_ix2_apply wr _ k q)

/-- The dense part of the last layer at `(p, q)`. -/
theorem denseLast_apply (mn h : FVec Ideal S50000x128 .f32) (wl : FVec Ideal S256x128 .f32)
    (b : FVec Ideal S256 .f32) (wr : FVec Ideal S256x128 .f32) (p : Fin 50000) (q : Fin 256) :
    denseLast mn h wl b wr (ix2 p q)
      = ((∑ k : Fin 128, mn (ix2 p k) * wl (ix2 q k)) + b (ix1 q))
          + ∑ k : Fin 128, h (ix2 p k) * wr (ix2 q k) := by
  unfold denseLast
  simp only [addf_apply]
  rw [PlainDot.dotGeneral_apply dot_S50000x128_S128x256_S50000x256_1_0_0_1_n_n rfl rfl rfl rfl rfl rfl rfl rfl,
    PlainDot.dotGeneral_apply dot_S50000x128_S128x256_S50000x256_1_0_0_1_n_n rfl rfl rfl rfl rfl rfl rfl rfl,
    biasRows256_apply]
  refine congrArg₂ HAdd.hAdd (congrArg₂ HAdd.hAdd (Finset.sum_congr rfl fun k _ => ?_) rfl)
    (Finset.sum_congr rfl fun k _ => ?_)
  · exact congrArg (mn (ix2 p k) * ·) (transpose_ix2_apply wl _ k q)
  · exact congrArg (h (ix2 p k) * ·) (transpose_ix2_apply wr _ k q)

end Cert.ReferenceIdeal.Layers

end
-- ==== Proof.Bridge.lean ====
/-
  The two programs compute one function.

  Layer by layer both form the same aggregate over incoming edges. The kernel's program multiplies it by
  `1 / max(degree, 1)`, computed once; the reference divides it by `max(degree, 1)`. On the extended reals
  `a · (1 / c) = a / c` for every `a` as soon as `c ≠ 0` (both are `a · c⁻¹`), and `max(degree, 1) ≥ 1`, so the
  two means agree whatever the aggregate holds. The dense parts are `(A + B) + b` against `(A + b) + B` with the same
  two contractions `A`, `B` and bias `b`: addition on the extended reals is commutative and associative. Neither
  step needs the inputs to be finite.
-/
import proofs.«168733_j53163105190283_1_alg».proof.Proof.KernelOut
import proofs.«168733_j53163105190283_1_alg».proof.Proof.RefValue
import proofs.«168733_j53163105190283_1_alg».proof.Proof.RefAt
import Idealize.ShloMosaic.Lib.ValueIdx
import Idealize.ShloMosaic.Lib.Pipeline.Value
import Idealize.ShloMosaic.PureOps.Ideal
import Idealize.ShloMosaic.PureOps.Ideal.Laws

set_option maxRecDepth 16384

open scoped BigOperators

noncomputable section

namespace Cert.Bridge

open Idealize.ShloMosaic Idealize.ShloMosaic.ValueIdx Idealize.ShloMosaic.Pipeline
open Cert.KernelIdeal (S50000x128 S50000 S800000 S2x800000 S128x128 S128 S256x128 S256 S50000x256)

/-! ## Arithmetic on the extended reals -/

theorem one_f32 : Ideal.ofBits .f32 0x3F800000#32 = 1 := by
  simp [Ideal.ofBits, Ideal.ieee]
  rw [← EReal.coe_mul]
  norm_num

/-- Multiplying by the reciprocal of a nonzero extended real is dividing by it. -/
theorem mul_div_one (a c : EReal) (hc : c ≠ 0) : a * Ideal.div 1 c = Ideal.div a c := by
  unfold Ideal.div
  rw [if_neg hc, if_neg hc, one_mul]

theorem max_one_ne_zero (v : EReal) : max v 1 ≠ 0 :=
  ne_of_gt (lt_of_lt_of_le zero_lt_one (le_max_right v 1))

/-- The host's division read at an index. -/
theorem hostDivf_apply {s : Shape} {φ : FTy} (a b : FVec Ideal s φ) (i : s.Idx) :
    Host.divf a b i = Ideal.div (a i) (b i) := rfl

/-! ## The shared host chain is the same term in both programs -/

theorem srcOf_eq (e : IVec S2x800000 32) : Cert.KernelIdeal.Dense.srcOf e = Cert.ReferenceIdeal.Layers.srcOf e := rfl
theorem dstOf_eq (e : IVec S2x800000 32) : Cert.KernelIdeal.Dense.dstOf e = Cert.ReferenceIdeal.Layers.dstOf e := rfl
theorem aggregate_eq (h : FVec Ideal S50000x128 .f32) (s d : IVec S800000 32) :
    Cert.KernelIdeal.Dense.aggregate h s d = Cert.ReferenceIdeal.Layers.aggregate (F := Ideal) h s d := rfl
theorem alongRows_eq (v : FVec Ideal S50000 .f32) :
    Cert.KernelIdeal.Dense.alongRows v = Cert.ReferenceIdeal.Layers.alongRows (F := Ideal) v := rfl
theorem degree_eq (d : IVec S800000 32) :
    Cert.KernelIdeal.Dense.degree d = Cert.ReferenceIdeal.Layers.degree (F := Ideal) d := rfl

/-! ## The mean -/

/-- A per-row value spread along the features, read at `(p, q)`: the value at row `p`. -/
theorem alongRows_apply (v : FVec Ideal S50000 .f32) (p : Fin 50000) (q : Fin 128) :
    Cert.ReferenceIdeal.Layers.alongRows (F := Ideal) v (ix2 p q) = v (ix1 p) := by
  unfold Cert.ReferenceIdeal.Layers.alongRows
  rw [broadcastInDim_apply _ _ _ (ix2 p q) (ix2 p (0 : Fin 1)) (fun a => by
    match a with
    | ⟨0, _⟩ => rfl
    | ⟨1, _⟩ => rfl)]
  exact broadcastInDim_apply _ _ _ _ (ix1 p) (fun a => by
    match a with
    | ⟨0, _⟩ => rfl)

/-- `max(degree, 1)` is nowhere zero. -/
theorem degree_ne_zero (d : IVec S800000 32) (p : Fin 50000) :
    Cert.ReferenceIdeal.Layers.degree (F := Ideal) d (ix1 p) ≠ 0 := by
  unfold Cert.ReferenceIdeal.Layers.degree
  rw [maximumf_apply, broadcastInDim_apply _ _ _ (ix1 p) (fun a => a.elim0) (fun a => a.elim0), constant_apply, one_f32]
  exact max_one_ne_zero _

/-- The reciprocal the kernel's program computes, at row `p`: `1 / max(degree, 1)`. -/
theorem invDegree_apply (d : IVec S800000 32) (p : Fin 50000) :
    Cert.KernelIdeal.Dense.invDegree d (ix1 p)
      = Ideal.div 1 (Cert.ReferenceIdeal.Layers.degree (F := Ideal) d (ix1 p)) := by
  unfold Cert.KernelIdeal.Dense.invDegree
  rw [degree_eq, hostDivf_apply, broadcastInDim_apply _ _ _ (ix1 p) (fun a => a.elim0) (fun a => a.elim0), constant_apply,
    one_f32]

/-- The kernel's mean (aggregate times reciprocal) is the reference's mean (aggregate over `max(degree, 1)`). -/
theorem mean_eq (h : FVec Ideal S50000x128 .f32) (e : IVec S2x800000 32) :
    Cert.KernelIdeal.Dense.meanTimes h (Cert.KernelIdeal.Dense.srcOf e) (Cert.KernelIdeal.Dense.dstOf e)
        (Cert.KernelIdeal.Dense.invDegree (Cert.KernelIdeal.Dense.dstOf e))
      = Cert.ReferenceIdeal.Layers.meanOver (F := Ideal) h (Cert.ReferenceIdeal.Layers.srcOf e)
          (Cert.ReferenceIdeal.Layers.dstOf e) := by
  funext j
  obtain ⟨p, q, rfl⟩ : ∃ (p : Fin 50000) (q : Fin 128), j = ix2 p q := ⟨j 0, j 1, eq_ix2 j⟩
  rw [srcOf_eq, dstOf_eq]
  calc Cert.KernelIdeal.Dense.meanTimes h (Cert.ReferenceIdeal.Layers.srcOf e) (Cert.ReferenceIdeal.Layers.dstOf e)
          (Cert.KernelIdeal.Dense.invDegree (Cert.ReferenceIdeal.Layers.dstOf e)) (ix2 p q)
      = Cert.KernelIdeal.Dense.aggregate h (Cert.ReferenceIdeal.Layers.srcOf e) (Cert.ReferenceIdeal.Layers.dstOf e) (ix2 p q)
          * Cert.KernelIdeal.Dense.alongRows (Cert.KernelIdeal.Dense.invDegree (Cert.ReferenceIdeal.Layers.dstOf e)) (ix2 p q) := by
        unfold Cert.KernelIdeal.Dense.meanTimes
        exact mulf_apply _ _ _
    _ = Cert.ReferenceIdeal.Layers.aggregate (F := Ideal) h (Cert.ReferenceIdeal.Layers.srcOf e) (Cert.ReferenceIdeal.Layers.dstOf e) (ix2 p q)
          * Ideal.div 1 (Cert.ReferenceIdeal.Layers.degree (F := Ideal) (Cert.ReferenceIdeal.Layers.dstOf e) (ix1 p)) := by
        rw [aggregate_eq, alongRows_eq, alongRows_apply, invDegree_apply]
    _ = Ideal.div (Cert.ReferenceIdeal.Layers.aggregate (F := Ideal) h (Cert.ReferenceIdeal.Layers.srcOf e) (Cert.ReferenceIdeal.Layers.dstOf e) (ix2 p q))
          (Cert.ReferenceIdeal.Layers.degree (F := Ideal) (Cert.ReferenceIdeal.Layers.dstOf e) (ix1 p)) :=
        mul_div_one _ _ (degree_ne_zero _ p)
    _ = Ideal.div (Cert.ReferenceIdeal.Layers.aggregate (F := Ideal) h (Cert.ReferenceIdeal.Layers.srcOf e) (Cert.ReferenceIdeal.Layers.dstOf e) (ix2 p q))
          (Cert.ReferenceIdeal.Layers.alongRows (F := Ideal) (Cert.ReferenceIdeal.Layers.degree (F := Ideal) (Cert.ReferenceIdeal.Layers.dstOf e)) (ix2 p q)) := by
        rw [alongRows_apply]
    _ = Cert.ReferenceIdeal.Layers.meanOver (F := Ideal) h (Cert.ReferenceIdeal.Layers.srcOf e) (Cert.ReferenceIdeal.Layers.dstOf e) (ix2 p q) := by
        unfold Cert.ReferenceIdeal.Layers.meanOver
        exact (hostDivf_apply _ _ _).symm

/-! ## The layers -/

/-- A hidden layer of the reference is the kernel's hidden layer. -/
theorem step_eq (h : FVec Ideal S50000x128 .f32) (e : IVec S2x800000 32) (wl : FVec Ideal S128x128 .f32)
    (b : FVec Ideal S128 .f32) (wr : FVec Ideal S128x128 .f32) :
    Cert.ReferenceIdeal.Layers.hidden (F := Ideal) h (Cert.ReferenceIdeal.Layers.srcOf e) (Cert.ReferenceIdeal.Layers.dstOf e) wl b wr
      = Cert.KernelIdeal.Dense.step h e wl b wr := by
  funext j
  obtain ⟨p, q, rfl⟩ : ∃ (p : Fin 50000) (q : Fin 128), j = ix2 p q := ⟨j 0, j 1, eq_ix2 j⟩
  unfold Cert.ReferenceIdeal.Layers.hidden Cert.KernelIdeal.Dense.step
  rw [Cert.ReferenceIdeal.Layers.denseHidden_apply, mean_eq]
  show _ = max (Cert.KernelIdeal.Dense.affineAt _ h wl wr b p q) 0
  unfold Cert.KernelIdeal.Dense.affineAt
  rw [add_right_comm]

/-- The reference's last layer is the kernel's last layer. -/
theorem stepLast_eq (h : FVec Ideal S50000x128 .f32) (e : IVec S2x800000 32) (wl : FVec Ideal S256x128 .f32)
    (b : FVec Ideal S256 .f32) (wr : FVec Ideal S256x128 .f32) :
    Cert.ReferenceIdeal.Layers.last (F := Ideal) h (Cert.ReferenceIdeal.Layers.srcOf e) (Cert.ReferenceIdeal.Layers.dstOf e) wl b wr
      = Cert.KernelIdeal.Dense.stepLast h e wl b wr := by
  funext j
  obtain ⟨p, q, rfl⟩ : ∃ (p : Fin 50000) (q : Fin 256), j = ix2 p q := ⟨j 0, j 1, eq_ix2 j⟩
  unfold Cert.ReferenceIdeal.Layers.last Cert.KernelIdeal.Dense.stepLast
  rw [Cert.ReferenceIdeal.Layers.denseLast_apply, mean_eq]
  show _ = Cert.KernelIdeal.Dense.affineAt _ h wl wr b p q
  unfold Cert.KernelIdeal.Dense.affineAt
  rw [add_right_comm]

/-- The reference's result is the kernel's result, as functions of the eleven arguments. -/
theorem out_eq (x : FVec Ideal S50000x128 .f32) (e : IVec S2x800000 32) (wl0 : FVec Ideal S128x128 .f32) (b0 : FVec Ideal S128 .f32)
    (wr0 wl1 : FVec Ideal S128x128 .f32) (b1 : FVec Ideal S128 .f32) (wr1 : FVec Ideal S128x128 .f32)
    (wl2 : FVec Ideal S256x128 .f32) (b2 : FVec Ideal S256 .f32) (wr2 : FVec Ideal S256x128 .f32) :
    Cert.ReferenceIdeal.Layers.out (F := Ideal) x e wl0 b0 wr0 wl1 b1 wr1 wl2 b2 wr2
      = Cert.KernelIdeal.Dense.out x e wl0 b0 wr0 wl1 b1 wr1 wl2 b2 wr2 := by
  unfold Cert.ReferenceIdeal.Layers.out Cert.KernelIdeal.Dense.out
  rw [step_eq, step_eq, stepLast_eq]

end Cert.Bridge

end
-- ==== Proof.lean ====
/-
  A three-layer GraphSAGE encoder: per layer, the mean over incoming edges of the neighbours' features and the
  features themselves go through `mean·Wlᵀ + h·Wrᵀ + b` (clamped at zero in the two hidden layers). The kernel's program
  runs the gather, the scatter-add and the scaling on the host and the dense part as a pipelined region over 25 blocks
  of 2000 rows; the reference is plain array code.

  Over the extended reals the two agree for every input: the aggregate is the same term in both; the kernel scales it
  by `1 / max(degree, 1)` where the reference divides by `max(degree, 1)`, which is the same because
  `max(degree, 1) ≠ 0`; the dense parts differ in the order of three summands; a region's 25 blocks are restrictions of
  one whole-array function and tile its output. The casts to bf16 are the identity on the extended reals.
-/
import proofs.«168733_j53163105190283_1_alg».proof.Defs
import proofs.«168733_j53163105190283_1_alg».proof.Proof.Gen.Kernel
import proofs.«168733_j53163105190283_1_alg».proof.Proof.Gen.KernelIdeal
import proofs.«168733_j53163105190283_1_alg».proof.Proof.Gen.ReferenceIdeal
import proofs.«168733_j53163105190283_1_alg».proof.Proof.Gen.Pre_finite_inputs
import proofs.«168733_j53163105190283_1_alg».proof.Proof.Gen.ReferenceIdeal.Run
import proofs.«168733_j53163105190283_1_alg».proof.Proof.KernelFrameP
import proofs.«168733_j53163105190283_1_alg».proof.Proof.KernelIdealFrameP
import proofs.«168733_j53163105190283_1_alg».proof.Proof.KernelValue
import proofs.«168733_j53163105190283_1_alg».proof.Proof.RefValue
import proofs.«168733_j53163105190283_1_alg».proof.Proof.Bridge
import Idealize.ShloMosaic.Adequacy
import Idealize.ShloMosaic.Init

noncomputable section

namespace Cert.Proof

open Idealize.ShloMosaic Idealize.SL.Sem

/-- The word-level program runs, nothing faulting, and leaves its arguments as launched. -/
theorem frame_k : Cert.frame_Kernel := fun m ρ _ => Cert.Kernel.GenP.frame m ρ

/-- So does the idealized program. -/
theorem frame_ki : Cert.frame_KernelIdeal := fun m ρ _ => Cert.KernelIdeal.GenP.frame m ρ

/-- The reference runs: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the kernel's at the
    three layers of its arguments, the reference's at its own three layers, which are the same function. -/
theorem algebraic : Cert.algebraic_KernelIdeal_ReferenceIdeal := by
  intro m ρ m' ρ' _ hagree
  refine ⟨fun c => Cert.KernelIdeal.Dense.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Layers.res_eq, a0, a1, a2, a3, a4, a5, a6, a7, a8, a9, a10]
  exact Cert.Bridge.out_eq _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
